-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S2048x256 : Shape := ⟨2, ![2048, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S32768x256 .f32) (main_arg1 : FVec F S2048x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S32768x256 : Shape := ⟨2, ![32768, 256]⟩
abbrev S2048x256 : Shape := ⟨2, ![2048, 256]⟩
abbrev S32768x2048 : Shape := ⟨2, ![32768, 2048]⟩
abbrev S1x1 : Shape := ⟨2, ![1, 1]⟩
abbrev S512x256 : Shape := ⟨2, ![512, 256]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S2048 : Shape := ⟨1, ![2048]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S32768x2048, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S512x2048, .f32⟩
  | .local _ .vmem, ⟨4, _⟩ => ⟨S512x2048, .f32⟩
  | .local _ .vmem, ⟨5, _⟩ => ⟨S1x1, .f32⟩
  | .local _ .vmem, ⟨6, _⟩ => ⟨S1x1, .f32⟩
  | .local _ .vmem, ⟨7, _⟩ => ⟨S1x2048, .f32⟩
  | .local _ .vmem, ⟨8, _⟩ => ⟨S1x1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v39 : BitVec 1 := Scalar.cmpi .eq arg0 c63_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  reduces_S512x256_S512 : S512x256.Reduces [1] S512
  shapeCasts_S512_S512x1 : S512.ShapeCasts S512x1
  reduces_S2048x256_S2048 : S2048x256.Reduces [1] S2048
  shapeCasts_S2048_S1x2048 : S2048.ShapeCasts S1x2048
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  reduces_S512x2048_S2048 : S512x2048.Reduces [0] S2048
  reduces_S512x2048_S512 : S512x2048.Reduces [1] S512
  reduces_S512x1_S1 : S512x1.Reduces [0] S1
  shapeCasts_S1_S1x1 : S1.ShapeCasts S1x1
  reduces_S1x2048_S1 : S1x2048.Reduces [1] S1
  shapeCasts_S1x1_S_ : S1x1.ShapeCasts S_
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x256 : Shape := ⟨2, ![32768, 256]⟩
abbrev S2048x256 : Shape := ⟨2, ![2048, 256]⟩
abbrev S_ : Shape := ⟨0, ![]⟩
abbrev S32768 : Shape := ⟨1, ![32768]⟩
abbrev S32768x1 : Shape := ⟨2, ![32768, 1]⟩
abbrev S2048 : Shape := ⟨1, ![2048]⟩
abbrev S1x2048 : Shape := ⟨2, ![1, 2048]⟩
abbrev S32768x2048 : Shape := ⟨2, ![32768, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S2048x256, .f32⟩
  | .hbm, ⟨2, _⟩ => ⟨S32768x256, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S2048x256_S2048_d1 : S2048x256.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  reducesTo_S32768x2048_S2048_d0 : S32768x2048.ReducesTo [0] S2048
  reducesTo_S2048_S_d0 : S2048.ReducesTo [0] S_
  reducesTo_S32768x2048_S32768_d1 : S32768x2048.ReducesTo [1] S32768
  reducesTo_S32768_S_d0 : S32768.ReducesTo [0] S_
  dot_S32768x256_S2048x256_S32768x2048_1_1_0_0_n_n_wf : DotDims.WF S32768x256 S2048x256 S32768x2048 [1] [1] [0] [0] [] []

variable [Facts₀]

def dot_S32768x256_S2048x256_S32768x2048_1_1_0_0_n_n : DotDims S32768x256 S2048x256 S32768x2048 where
  lhsContracting := [1]
  rhsContracting := [1]
  lhsNonContracting := [0]
  rhsNonContracting := [0]
  lhsBatch := []
  rhsBatch := []
  wf := dot_S32768x256_S2048x256_S32768x2048_1_1_0_0_n_n_wf

class Facts : Prop extends Facts₀ where

variable [Facts]
-- ==== Proof.Spec.lean ====
/-
  The mathematics of the nearest-prototype statistics, with no program in sight.

  For rows `x n` (`n < R`) and prototypes `p j` (`j < 2048`) in dimension 256, the clipped squared distance is
  `dist x p n j = max ((‖x n‖² + ‖p j‖²) - 2 · ⟨x n, p j⟩) 0` on the extended reals; `colmin` is its minimum over the rows,
  `rowmin` its minimum over the prototypes, `r1` the mean over prototypes of `colmin` and `r2` the mean over rows of
  `rowmin`.  The 32768 rows come in 64 consecutive blocks of 512 (`rowOf`); the running minimum and running sum over the
  rows of the first `n + 1` blocks (`accMin`, `accSum`) satisfy a one-block recurrence and end at `colmin` and at the
  sum of all `rowmin`s, because minimum and sum over a disjoint union are the minimum and the sum of the parts.
-/
import Idealize.ShloMosaic.PureOps.Ideal
import Idealize.ShloMosaic.PureOps.Ideal.Laws
import Idealize.ShloMosaic.Lib.ValueIdx

noncomputable section

open scoped BigOperators

namespace Cert.Knn

open Idealize.ShloMosaic Idealize.ShloMosaic.ValueIdx

/-- The f32 word of `+∞` denotes the top extended real. -/
theorem ofBits_inf_f32 : Ideal.ofBits .f32 0x7F800000#32 = (⊤ : EReal) := by
  simp [Ideal.ofBits, Ideal.ieee]

/-- The factor 2 of the cross term, as the f32 word both programs spell. -/
abbrev two : EReal := Ideal.ofBits .f32 0x40000000#32

/-- Clipped squared distance between row `n` of `x` and prototype `j`, by the expansion
    `‖a - b‖² = ‖a‖² + ‖b‖² - 2⟨a, b⟩`. -/
def dist {R : ℕ} (x : (⟨2, ![R, 256]⟩ : Shape).Idx → EReal) (p : (⟨2, ![2048, 256]⟩ : Shape).Idx → EReal)
    (n : Fin R) (j : Fin 2048) : EReal :=
  max (((∑ k : Fin 256, x (ix2 n k) * x (ix2 n k)) + ∑ k : Fin 256, p (ix2 j k) * p (ix2 j k))
        - two * ∑ k : Fin 256, x (ix2 n k) * p (ix2 j k)) 0

/-- Minimum over the rows of the distance to prototype `j`. -/
def colmin {R : ℕ} (x : (⟨2, ![R, 256]⟩ : Shape).Idx → EReal) (p : (⟨2, ![2048, 256]⟩ : Shape).Idx → EReal)
    (j : Fin 2048) : EReal :=
  (Finset.univ : Finset (Fin R)).fold min ⊤ (fun n => dist x p n j)

/-- Minimum over the prototypes of the distance from row `n`. -/
def rowmin {R : ℕ} (x : (⟨2, ![R, 256]⟩ : Shape).Idx → EReal) (p : (⟨2, ![2048, 256]⟩ : Shape).Idx → EReal)
    (n : Fin R) : EReal :=
  (Finset.univ : Finset (Fin 2048)).fold min ⊤ (fun j => dist x p n j)

/-- Mean over the prototypes of the nearest row's distance. -/
def r1 (x : (⟨2, ![32768, 256]⟩ : Shape).Idx → EReal) (p : (⟨2, ![2048, 256]⟩ : Shape).Idx → EReal) : EReal :=
  Ideal.div (∑ j : Fin 2048, colmin x p j) (Ideal.ofBits .f32 0x45000000#32)

/-- Mean over the rows of the nearest prototype's distance. -/
def r2 (x : (⟨2, ![32768, 256]⟩ : Shape).Idx → EReal) (p : (⟨2, ![2048, 256]⟩ : Shape).Idx → EReal) : EReal :=
  Ideal.div (∑ n : Fin 32768, rowmin x p n) (Ideal.ofBits .f32 0x47000000#32)

/-- The distance matrix as an array. -/
def distArr (x : (⟨2, ![32768, 256]⟩ : Shape).Idx → EReal) (p : (⟨2, ![2048, 256]⟩ : Shape).Idx → EReal) :
    (⟨2, ![32768, 2048]⟩ : Shape).Idx → EReal := fun i => dist x p (i 0) (i 1)

/-! ## Rows in blocks of 512 -/

/-- Row `r` of block `t`. -/
def rowOf (t : Fin 64) (r : Fin 512) : Fin 32768 := ⟨t.val * 512 + r.val, by omega⟩

@[simp] theorem rowOf_val (t : Fin 64) (r : Fin 512) : (rowOf t r).val = t.val * 512 + r.val := rfl

theorem rowOf_mk_val (n : ℕ) (hn : n < 64) (r : Fin 512) : (rowOf ⟨n, hn⟩ r).val = n * 512 + r.val := rfl

theorem rowOf_injective (t : Fin 64) : Function.Injective (rowOf t) := fun r r' h => by
  have := congrArg Fin.val h; simp only [rowOf_val] at this; exact Fin.ext (by omega)

/-- The rows of blocks `0 … n`. -/
def upTo (n : ℕ) : Finset (Fin 32768) := Finset.univ.filter fun N => N.val < (n + 1) * 512

theorem mem_upTo (n : ℕ) (N : Fin 32768) : N ∈ upTo n ↔ N.val < (n + 1) * 512 := by
  unfold upTo; rw [Finset.mem_filter]; exact and_iff_right (Finset.mem_univ _)

theorem mem_image_rowOf (t : Fin 64) (N : Fin 32768) :
    N ∈ Finset.univ.image (rowOf t) ↔ ∃ r : Fin 512, rowOf t r = N := by
  rw [Finset.mem_image]; exact ⟨fun ⟨r, _, h⟩ => ⟨r, h⟩, fun ⟨r, h⟩ => ⟨r, Finset.mem_univ _, h⟩⟩

theorem upTo_zero : upTo 0 = Finset.univ.image (rowOf 0) := by
  ext N
  rw [mem_upTo, mem_image_rowOf]
  constructor
  · intro h; exact ⟨⟨N.val, by omega⟩, Fin.ext (by rw [rowOf_val]; simp only [Fin.val_zero]; omega)⟩
  · rintro ⟨r, rfl⟩; have := r.isLt; rw [rowOf_val]; simp only [Fin.val_zero]; omega

theorem upTo_succ (n : ℕ) (hn : n + 1 < 64) :
    upTo (n + 1) = upTo n ∪ Finset.univ.image (rowOf ⟨n + 1, hn⟩) := by
  ext N
  rw [Finset.mem_union, mem_upTo, mem_upTo, mem_image_rowOf]
  constructor
  · intro h
    by_cases h' : N.val < (n + 1) * 512
    · exact Or.inl h'
    · refine Or.inr ⟨⟨N.val - (n + 1) * 512, by omega⟩, Fin.ext ?_⟩
      rw [rowOf_mk_val]; show (n + 1) * 512 + (N.val - (n + 1) * 512) = N.val; omega
  · intro h
    rcases h with h | ⟨r, hr⟩
    · exact lt_of_lt_of_le h (Nat.mul_le_mul_right 512 (Nat.le_succ _))
    · have e := congrArg Fin.val hr
      rw [rowOf_mk_val] at e; have := r.isLt; omega

theorem upTo_disjoint (n : ℕ) (hn : n + 1 < 64) :
    Disjoint (upTo n) (Finset.univ.image (rowOf ⟨n + 1, hn⟩)) := by
  rw [Finset.disjoint_left]
  intro N h h'
  rw [mem_upTo] at h
  obtain ⟨r, hr⟩ := (mem_image_rowOf _ _).1 h'
  have e := congrArg Fin.val hr
  rw [rowOf_mk_val] at e; omega

theorem upTo_last : upTo 63 = Finset.univ := by
  ext N; rw [mem_upTo]; have := N.isLt; exact ⟨fun _ => Finset.mem_univ _, fun _ => by omega⟩

/-- Running minimum over the rows of blocks `0 … n`. -/
def accMin (f : Fin 32768 → EReal) (n : ℕ) : EReal := (upTo n).fold min ⊤ f

/-- Running sum over the rows of blocks `0 … n`. -/
def accSum (f : Fin 32768 → EReal) (n : ℕ) : EReal := ∑ N ∈ upTo n, f N

theorem accMin_zero (f : Fin 32768 → EReal) :
    accMin f 0 = (Finset.univ : Finset (Fin 512)).fold min ⊤ (fun r => f (rowOf 0 r)) := by
  unfold accMin
  rw [upTo_zero, Finset.fold_image (fun r _ r' _ e => rowOf_injective 0 e)]; rfl

theorem accMin_succ (f : Fin 32768 → EReal) (n : ℕ) (hn : n + 1 < 64) :
    accMin f (n + 1) = min (accMin f n) ((Finset.univ : Finset (Fin 512)).fold min ⊤ (fun r => f (rowOf ⟨n + 1, hn⟩ r))) := by
  unfold accMin
  have h := Finset.fold_union_inter (op := min) (f := f) (s₁ := upTo n)
    (s₂ := Finset.univ.image (rowOf ⟨n + 1, hn⟩)) (b₁ := ⊤) (b₂ := ⊤)
  rw [Finset.disjoint_iff_inter_eq_empty.1 (upTo_disjoint n hn), Finset.fold_empty, min_top_right] at h
  rw [upTo_succ n hn, h, Finset.fold_image (fun r _ r' _ e => rowOf_injective _ e)]; rfl

theorem accMin_last (f : Fin 32768 → EReal) : accMin f 63 = (Finset.univ : Finset (Fin 32768)).fold min ⊤ f := by
  unfold accMin; rw [upTo_last]

theorem accSum_zero (f : Fin 32768 → EReal) : accSum f 0 = ∑ r : Fin 512, f (rowOf 0 r) := by
  unfold accSum
  rw [upTo_zero, Finset.sum_image (fun r _ r' _ e => rowOf_injective 0 e)]

theorem accSum_succ (f : Fin 32768 → EReal) (n : ℕ) (hn : n + 1 < 64) :
    accSum f (n + 1) = accSum f n + ∑ r : Fin 512, f (rowOf ⟨n + 1, hn⟩ r) := by
  unfold accSum
  rw [upTo_succ n hn, Finset.sum_union (upTo_disjoint n hn), Finset.sum_image (fun r _ r' _ e => rowOf_injective _ e)]

theorem accSum_last (f : Fin 32768 → EReal) : accSum f 63 = ∑ N : Fin 32768, f N := by
  unfold accSum; rw [upTo_last]

/-- A block of `x` that agrees with `x` on its rows has the distances of those rows. -/
theorem dist_block (x : (⟨2, ![32768, 256]⟩ : Shape).Idx → EReal) (xb : (⟨2, ![512, 256]⟩ : Shape).Idx → EReal)
    (p : (⟨2, ![2048, 256]⟩ : Shape).Idx → EReal) (t : Fin 64)
    (hx : ∀ (r : Fin 512) (k : Fin 256), xb (ix2 r k) = x (ix2 (rowOf t r) k)) (r : Fin 512) (j : Fin 2048) :
    dist xb p r j = dist x p (rowOf t r) j := by
  unfold dist; simp only [hx]

end Cert.Knn

end
-- ==== Proof.RefValue.lean ====
import proofs.«105423_j27504970564139_1_alg».proof.Proof.Gen.ReferenceIdeal.Run
import proofs.«105423_j27504970564139_1_alg».proof.Proof.Gen.ReferenceIdeal.Read
import proofs.«105423_j27504970564139_1_alg».proof.Proof.Spec
import Idealize.ShloMosaic.PureOps.Reduce
import Idealize.ShloMosaic.PureOps.Ideal.Laws
import Idealize.ShloMosaic.Lib.ValueIdx
import Idealize.ShloMosaic.Lib.ValueIdxRank1

/-
  The reference program's three results, read as the mathematics of `Spec`.

  The reference computes, for every row `n` and prototype `j`, the clipped expansion
  `max ((‖x n‖² + ‖p j‖²) - 2 · ⟨x n, p j⟩) 0`; it then takes the minimum of that matrix down each column and along
  each row, sums the two vectors of minima and divides by their lengths.  Each stage is read at an index: the
  elementwise stages through their operands at the same index, the broadcasts through the coordinate they keep, the
  two minimum reductions as a fold of `min` from `⊤` over the coordinate of the dropped axis, and the two total sums
  as sums over `Fin 2048` and `Fin 32768`.
-/

noncomputable section

open scoped BigOperators

namespace Cert.ReferenceIdeal.RefValue

open Cert.ReferenceIdeal Cert.ReferenceIdeal.Gen Cert.ReferenceIdeal.Read Cert.Knn
open Idealize.ShloMosaic Idealize.ShloMosaic.ValueIdx

/-! ## The distance matrix -/

/-- Through the two broadcasts, entry `(n, j)` reads the squared norm of row `n` of `x`: its `k`-th summand sits at `(n, k)`. -/
theorem idx_xnorm (i : S32768x2048.Idx) (k : Fin 256) :
    idx_main_v1 (idx_main_v2 (idx_main_v7 i)) k = ix2 (i 0) k :=
  funext fun a => Fin.ext (by match a with | ⟨0, _⟩ => rfl | ⟨1, _⟩ => rfl)

/-- Through the two broadcasts, entry `(n, j)` reads the squared norm of prototype `j`: its `k`-th summand sits at `(j, k)`. -/
theorem idx_pnorm (i : S32768x2048.Idx) (k : Fin 256) :
    idx_main_v4 (idx_main_v5 (idx_main_v8 i)) k = ix2 (i 1) k :=
  funext fun a => Fin.ext (by match a with | ⟨0, _⟩ => rfl | ⟨1, _⟩ => rfl)

/-- The inner product at `(n, j)` reads `x` at `(n, k)` … -/
theorem idx_xdot (i : S32768x2048.Idx) (k : Fin 256) : lidx_main_v6 i k = ix2 (i 0) k :=
  funext fun a => Fin.ext (by match a with | ⟨0, _⟩ => rfl | ⟨1, _⟩ => rfl)

/-- … and `p` at `(j, k)`. -/
theorem idx_pdot (i : S32768x2048.Idx) (k : Fin 256) : ridx_main_v6 i k = ix2 (i 1) k :=
  funext fun a => Fin.ext (by match a with | ⟨0, _⟩ => rfl | ⟨1, _⟩ => rfl)

/-- The reference's clipped matrix is the matrix of clipped squared distances. -/
theorem ref_dist (x : (⟨S32768x256, .f32⟩ : BufTy).Contents (Elt Ideal)) (p : (⟨S2048x256, .f32⟩ : BufTy).Contents (Elt Ideal)) :
    val_main_v14 (F := Ideal) x p = distArr x p := by
  funext i
  rw [val_main_v14_apply, val_main_v12_apply, val_main_v13_apply, val_main_cst_2_apply, val_main_v9_apply,
    val_main_v11_apply, val_main_v10_apply, val_main_cst_1_apply, val_main_v6_apply, val_main_v7_apply,
    val_main_v2_apply, val_main_v1_apply, val_main_v8_apply, val_main_v5_apply, val_main_v4_apply,
    val_main_cst_apply, val_main_cst_0_apply]
  simp only [val_main_v0_apply, val_main_v3_apply, Ideal.maximumf_def, Ideal.subf_def, Ideal.addf_def,
    Ideal.mulf_def, Ideal.ofBits_def, Ideal.ofBits_zero_f32, zero_add, idx_xnorm, idx_pnorm, idx_xdot, idx_pdot]
  rfl

/-! ## The two minimum reductions -/

/-- The distance matrix without its row axis is indexed by the prototypes. -/
theorem red_rows : S32768x2048.Reduces [0] S2048 := by decide

/-- The distance matrix without its prototype axis is indexed by the rows. -/
theorem red_protos : S32768x2048.Reduces [1] S32768 := by decide

/-- Prototype `j` with row `k` put back in front is the entry `(k, j)`. -/
theorem lift_rows (j : Fin 2048) (k : Fin (S32768x2048.size 0)) :
    red_rows.lift (ix1 j) k = ix2 (⟨k.val, k.isLt⟩ : Fin 32768) j :=
  funext fun c => Fin.ext (by match c with | ⟨0, _⟩ => rfl | ⟨1, _⟩ => rfl)

/-- Row `n` with prototype `k` put back behind is the entry `(n, k)`. -/
theorem lift_protos (n : Fin 32768) (k : Fin (S32768x2048.size 1)) :
    red_protos.lift (ix1 n) k = ix2 n (⟨k.val, k.isLt⟩ : Fin 2048) :=
  funext fun c => Fin.ext (by match c with | ⟨0, _⟩ => rfl | ⟨1, _⟩ => rfl)

/-- The minimum down column `j` of the reference's matrix, from `+∞`, is the distance from prototype `j` to its nearest row. -/
theorem ref_colmin (x : (⟨S32768x256, .f32⟩ : BufTy).Contents (Elt Ideal)) (p : (⟨S2048x256, .f32⟩ : BufTy).Contents (Elt Ideal))
    (j : Fin 2048) : val_main_v15 (F := Ideal) x p (ix1 j) = colmin x p j := by
  unfold val_main_v15
  rw [Host.reduce_eq_fold_single FloatOps.minimumf _ _ reducesTo_S32768x2048_S2048_d0 red_rows h_S_, ref_dist]
  have hf : (distArr x p ∘ red_rows.lift (ix1 j)) = fun n : Fin 32768 => dist x p n j :=
    funext fun k => by
      show dist x p (red_rows.lift (ix1 j) k 0) (red_rows.lift (ix1 j) k 1) = _
      rw [lift_rows]; rfl
  unfold colmin
  rw [← ofBits_inf_f32]
  exact congrArg (fun f => Finset.fold min (Ideal.ofBits .f32 0x7F800000#32) f (Finset.univ : Finset (Fin 32768))) hf

/-- The minimum along row `n` of the reference's matrix, from `+∞`, is the distance from row `n` to its nearest prototype. -/
theorem ref_rowmin (x : (⟨S32768x256, .f32⟩ : BufTy).Contents (Elt Ideal)) (p : (⟨S2048x256, .f32⟩ : BufTy).Contents (Elt Ideal))
    (n : Fin 32768) : val_main_v18 (F := Ideal) x p (ix1 n) = rowmin x p n := by
  unfold val_main_v18
  rw [Host.reduce_eq_fold_single FloatOps.minimumf _ _ reducesTo_S32768x2048_S32768_d1 red_protos h_S_, ref_dist]
  have hf : (distArr x p ∘ red_protos.lift (ix1 n)) = fun j : Fin 2048 => dist x p n j :=
    funext fun k => by
      show dist x p (red_protos.lift (ix1 n) k 0) (red_protos.lift (ix1 n) k 1) = _
      rw [lift_protos]; rfl
  unfold rowmin
  rw [← ofBits_inf_f32]
  exact congrArg (fun f => Finset.fold min (Ideal.ofBits .f32 0x7F800000#32) f (Finset.univ : Finset (Fin 2048))) hf

/-! ## The two means -/

/-- The reference's first result: the sum of the column minima over the 2048 prototypes, divided by the word of 2048. -/
theorem ref_r1 (x : (⟨S32768x256, .f32⟩ : BufTy).Contents (Elt Ideal)) (p : (⟨S2048x256, .f32⟩ : BufTy).Contents (Elt Ideal)) :
    val_main_v17 (F := Ideal) x p = fun _ => r1 x p := by
  funext i
  rw [val_main_v17_apply, val_main_v16_apply, val_main_cst_5_apply, val_main_cst_4_apply]
  simp only [Ideal.hostDivf_def, Ideal.ofBits_def, Ideal.ofBits_zero_f32, zero_add]
  unfold r1
  refine congrArg (fun s => Ideal.div s (Ideal.ofBits .f32 0x45000000#32)) ?_
  exact Fintype.sum_equiv idxEquiv1 _ _ fun j =>
    (congrArg (val_main_v15 (F := Ideal) x p) (eq_ix1 j)).trans (ref_colmin x p (j 0))

/-- The reference's second result: the sum of the row minima over the 32768 rows, divided by the word of 32768. -/
theorem ref_r2 (x : (⟨S32768x256, .f32⟩ : BufTy).Contents (Elt Ideal)) (p : (⟨S2048x256, .f32⟩ : BufTy).Contents (Elt Ideal)) :
    val_main_v20 (F := Ideal) x p = fun _ => r2 x p := by
  funext i
  rw [val_main_v20_apply, val_main_v19_apply, val_main_cst_8_apply, val_main_cst_7_apply]
  simp only [Ideal.hostDivf_def, Ideal.ofBits_def, Ideal.ofBits_zero_f32, zero_add]
  unfold r2
  refine congrArg (fun s => Ideal.div s (Ideal.ofBits .f32 0x47000000#32)) ?_
  exact Fintype.sum_equiv idxEquiv1 _ _ fun n =>
    (congrArg (val_main_v18 (F := Ideal) x p) (eq_ix1 n)).trans (ref_rowmin x p (n 0))

end Cert.ReferenceIdeal.RefValue

end
-- ==== Proof.KPieces.lean ====
/-
  The values the body's stores leave, case by case.

  Each store of the body writes a whole buffer, so what a buffer holds after the body is the payload of its last store,
  with every load read back as the whole buffer it loads: the distance block is the payload of the two input blocks;
  the running minimum and the running sum are their update payloads over what they held before (at the first point:
  over the `+∞` and `0` the body has just stored there); at the last point the two means are the payloads of the
  updated running values.  All of it for any float instance.
-/
import proofs.«105423_j27504970564139_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem out_A_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S512x256 .f32) (x1 : Vec F S2048x256 .f32) :
    out0_A_2 c i arg1 harg1 arg2 harg2 arg3 harg3 arg4 harg4 arg5 harg5 arg6 harg6 arg7 harg7 hc0 hc1 x0 x1 = k0_pay6 x0 x1 := by
  unfold out0_A_2
  rw [View.read_writes_eq_canon _ _ _ (cover0_A_2 c i arg1 harg1 arg2 harg2 arg3 harg3 arg4 harg4 arg5 harg5 arg6 harg6 arg7 harg7 hc0 hc1 x0 x1)]
  unfold kernelRun0_A
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem out_B_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i)
    (x0 : Vec F S512x256 .f32) (x1 : Vec F S2048x256 .f32) (xs0 : Vec F S1x2048 .f32) (xs1 : Vec F S1x1 .f32) :
    out0_B_2 c i arg1 harg1 arg2 harg2 arg3 harg3 arg4 harg4 arg5 harg5 arg6 harg6 arg7 harg7 hc0 hc1 x0 x1 xs0 xs1 = k0_pay6 x0 x1 := by
  unfold out0_B_2
  rw [View.read_writes_eq_canon _ _ _ (cover0_B_2 c i arg1 harg1 arg2 harg2 arg3 harg3 arg4 harg4 arg5 harg5 arg6 harg6 arg7 harg7 hc0 hc1 x0 x1 xs0 xs1)]
  unfold kernelRun0_B
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem out_C_2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S512x256 .f32) (x1 : Vec F S2048x256 .f32) (xs0 : Vec F S1x2048 .f32) (xs1 : Vec F S1x1 .f32) :
    out0_C_2 c i arg1 harg1 arg2 harg2 arg3 harg3 arg4 harg4 arg5 harg5 arg6 harg6 arg7 harg7 hc0 hc1 x0 x1 xs0 xs1 = k0_pay6 x0 x1 := by
  unfold out0_C_2
  rw [View.read_writes_eq_canon _ _ _ (cover0_C_2 c i arg1 harg1 arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_A_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S512x256 .f32) (x1 : Vec F S2048x256 .f32) :
    sout0_A_0 c i arg1 harg1 arg2 harg2 arg3 harg3 arg4 harg4 arg5 harg5 arg6 harg6 arg7 harg7 hc0 hc1 x0 x1 = k0_pay8 x0 x1 k0_pay4 := by
  unfold sout0_A_0
  rw [View.read_writes_eq_canon _ _ _ (scover0_A_0 c i arg1 harg1 arg2 harg2 arg3 harg3 arg4 harg4 arg5 harg5 arg6 harg6 arg7 harg7 hc0 hc1 x0 x1)]
  unfold kernelRun0_A
  dsimp only
  sl_unfold_words
  rw [View.canon_cons_unit_zero (S := S1x2048) hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_A_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : cond0_0 i) (hc1 : ¬cond0_1 i)
    (x0 : Vec F S512x256 .f32) (x1 : Vec F S2048x256 .f32) :
    sout0_A_1 c i arg1 harg1 arg2 harg2 arg3 harg3 arg4 harg4 arg5 harg5 arg6 harg6 arg7 harg7 hc0 hc1 x0 x1 = k0_pay1 (k0_pay7 x0 x1) k0_pay5 := by
  unfold sout0_A_1
  rw [View.read_writes_eq_canon _ _ _ (scover0_A_1 c i arg1 harg1 arg2 harg2 arg3 harg3 arg4 harg4 arg5 harg5 arg6 harg6 arg7 harg7 hc0 hc1 x0 x1)]
  unfold kernelRun0_A
  dsimp only
  sl_unfold_words
  rw [View.canon_cons_unit_zero (S := S1x1) hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_B_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i)
    (x0 : Vec F S512x256 .f32) (x1 : Vec F S2048x256 .f32) (xs0 : Vec F S1x2048 .f32) (xs1 : Vec F S1x1 .f32) :
    sout0_B_0 c i arg1 harg1 arg2 harg2 arg3 harg3 arg4 harg4 arg5 harg5 arg6 harg6 arg7 harg7 hc0 hc1 x0 x1 xs0 xs1 = k0_pay8 x0 x1 xs0 := by
  unfold sout0_B_0
  rw [View.read_writes_eq_canon _ _ _ (scover0_B_0 c i arg1 harg1 arg2 harg2 arg3 harg3 arg4 harg4 arg5 harg5 arg6 harg6 arg7 harg7 hc0 hc1 x0 x1 xs0 xs1)]
  unfold kernelRun0_B
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_B_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : ¬cond0_1 i)
    (x0 : Vec F S512x256 .f32) (x1 : Vec F S2048x256 .f32) (xs0 : Vec F S1x2048 .f32) (xs1 : Vec F S1x1 .f32) :
    sout0_B_1 c i arg1 harg1 arg2 harg2 arg3 harg3 arg4 harg4 arg5 harg5 arg6 harg6 arg7 harg7 hc0 hc1 x0 x1 xs0 xs1 = k0_pay1 (k0_pay7 x0 x1) xs1 := by
  unfold sout0_B_1
  rw [View.read_writes_eq_canon _ _ _ (scover0_B_1 c i arg1 harg1 arg2 harg2 arg3 harg3 arg4 harg4 arg5 harg5 arg6 harg6 arg7 harg7 hc0 hc1 x0 x1 xs0 xs1)]
  unfold kernelRun0_B
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_C_0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S512x256 .f32) (x1 : Vec F S2048x256 .f32) (xs0 : Vec F S1x2048 .f32) (xs1 : Vec F S1x1 .f32) :
    sout0_C_0 c i arg1 harg1 arg2 harg2 arg3 harg3 arg4 harg4 arg5 harg5 arg6 harg6 arg7 harg7 hc0 hc1 x0 x1 xs0 xs1 = k0_pay8 x0 x1 xs0 := by
  unfold sout0_C_0
  rw [View.read_writes_eq_canon _ _ _ (scover0_C_0 c i arg1 harg1 arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem sout_C_1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S512x256 .f32) (x1 : Vec F S2048x256 .f32) (xs0 : Vec F S1x2048 .f32) (xs1 : Vec F S1x1 .f32) :
    sout0_C_1 c i arg1 harg1 arg2 harg2 arg3 harg3 arg4 harg4 arg5 harg5 arg6 harg6 arg7 harg7 hc0 hc1 x0 x1 xs0 xs1 = k0_pay1 (k0_pay7 x0 x1) xs1 := by
  unfold sout0_C_1
  rw [View.read_writes_eq_canon _ _ _ (scover0_C_1 c i arg1 harg1 arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem out_C_3 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S512x256 .f32) (x1 : Vec F S2048x256 .f32) (xs0 : Vec F S1x2048 .f32) (xs1 : Vec F S1x1 .f32) :
    out0_C_3 c i arg1 harg1 arg2 harg2 arg3 harg3 arg4 harg4 arg5 harg5 arg6 harg6 arg7 harg7 hc0 hc1 x0 x1 xs0 xs1 = k0_pay2 (k0_pay8 x0 x1 xs0) := by
  unfold out0_C_3
  rw [View.read_writes_eq_canon _ _ _ (cover0_C_3 c i arg1 harg1 arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

theorem out_C_4 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x2048 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x2048 .f32) (harg6 : arg6.IsWhole) (arg7 : Memref sig .tc .vmem S1x1 .f32) (harg7 : arg7.IsWhole) (hc0 : ¬cond0_0 i) (hc1 : cond0_1 i)
    (x0 : Vec F S512x256 .f32) (x1 : Vec F S2048x256 .f32) (xs0 : Vec F S1x2048 .f32) (xs1 : Vec F S1x1 .f32) :
    out0_C_4 c i arg1 harg1 arg2 harg2 arg3 harg3 arg4 harg4 arg5 harg5 arg6 harg6 arg7 harg7 hc0 hc1 x0 x1 xs0 xs1 = k0_pay3 (k0_pay1 (k0_pay7 x0 x1) xs1) := by
  unfold out0_C_4
  rw [View.read_writes_eq_canon _ _ _ (cover0_C_4 c i arg1 harg1 arg2 harg2 arg3 harg3 arg4 harg4 arg5 harg5 arg6 harg6 arg7 harg7 hc0 hc1 x0 x1 xs0 xs1)]
  unfold kernelRun0_C
  dsimp only
  sl_unfold_words
  rw [View.canon_unit_zero hz]
  simp only [View.readAt_eq_ld, harg1.read_unread, harg2.read_unread, harg6.read_unread, harg7.read_unread, View.ld_unit_zero (S := S512x256) hz, View.ld_unit_zero (S := S2048x256) hz, View.ld_unit_zero (S := S1x2048) hz, View.ld_unit_zero (S := S1x1) hz, View.readCov_unit_zero (S := S1x2048) _ hz, View.readCov_unit_zero (S := S1x1) _ hz]

end Cert.KernelIdeal.Pieces
end
-- ==== Proof.KPoints.lean ====
/-
  What each grid point leaves, named by the body's arithmetic.

  At its first point the body resets the running column minimum to `+∞` and the running sum to `0` and then folds the
  point's block in; at every later point it folds the block into what the point before left; at the last point it also
  stores the two means.  Here each component of the point-by-point contents is identified with the corresponding
  payload of the point's input blocks (and of the previous point's running values), for any float instance.
-/
import proofs.«105423_j27504970564139_1_alg».proof.Proof.KPieces

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (m : (ℓ : Loc nD τ sig) → Buf (Elt F) ℓ)

/-- The block of `x` rows the pipeline stages at point `t`. -/
abbrev xblk (c : Dev nD) (t : Fin cfg0.N) : Vec F S512x256 .f32 := iblk m c 0 t
/-- The prototypes as staged at point `t` (the whole array at every point). -/
abbrev pblk (c : Dev nD) (t : Fin cfg0.N) : Vec F S2048x256 .f32 := iblk m c 1 t

/-- The first point: distances of its block; the running values started from `+∞` and `0`. -/
theorem at_first (c : Dev nD) (t : Fin cfg0.N) (h0 : t.val % 64 = 0) (h1 : ¬t.val % 64 = 63) :
    (outsAt0 m c t.val t.isLt).1 = k0_pay6 (xblk m c t) (pblk m c t)
    ∧ (outsAt0 m c t.val t.isLt).2.2.2.1 = k0_pay8 (xblk m c t) (pblk m c t) k0_pay4
    ∧ (outsAt0 m c t.val t.isLt).2.2.2.2 = k0_pay1 (k0_pay7 (xblk m c t) (pblk m c t)) k0_pay5 := by
  rw [outsAt0_A m c t h0 h1]
  dsimp only
  exact ⟨out_A_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t),
    sout_A_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t),
    sout_A_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t)⟩

/-- A middle point: distances of its block; the running values folded over the previous point's. -/
theorem at_middle (c : Dev nD) (t : Fin cfg0.N) (h0 : ¬t.val % 64 = 0) (h1 : ¬t.val % 64 = 63) :
    (outsAt0 m c t.val t.isLt).1 = k0_pay6 (xblk m c t) (pblk m c t)
    ∧ (outsAt0 m c t.val t.isLt).2.2.2.1 = k0_pay8 (xblk m c t) (pblk m c t) (outsAt0 m c (t.val - 1) (Nat.lt_of_le_of_lt (Nat.sub_le _ _) t.isLt)).2.2.2.1
    ∧ (outsAt0 m c t.val t.isLt).2.2.2.2 = k0_pay1 (k0_pay7 (xblk m c t) (pblk m c t)) (outsAt0 m c (t.val - 1) (Nat.lt_of_le_of_lt (Nat.sub_le _ _) t.isLt)).2.2.2.2 := by
  rw [outsAt0_B m c t h0 h1]
  dsimp only
  exact ⟨out_B_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) _ _,
    sout_B_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) _ _,
    sout_B_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) _ _⟩

/-- The last point: as a middle point, and the two means of the final running values. -/
theorem at_last (c : Dev nD) (t : Fin cfg0.N) (h0 : ¬t.val % 64 = 0) (h1 : t.val % 64 = 63) :
    (outsAt0 m c t.val t.isLt).1 = k0_pay6 (xblk m c t) (pblk m c t)
    ∧ (outsAt0 m c t.val t.isLt).2.1 = k0_pay2 (k0_pay8 (xblk m c t) (pblk m c t) (outsAt0 m c (t.val - 1) (Nat.lt_of_le_of_lt (Nat.sub_le _ _) t.isLt)).2.2.2.1)
    ∧ (outsAt0 m c t.val t.isLt).2.2.1 = k0_pay3 (k0_pay1 (k0_pay7 (xblk m c t) (pblk m c t)) (outsAt0 m c (t.val - 1) (Nat.lt_of_le_of_lt (Nat.sub_le _ _) t.isLt)).2.2.2.2)
    ∧ (outsAt0 m c t.val t.isLt).2.2.2.1 = k0_pay8 (xblk m c t) (pblk m c t) (outsAt0 m c (t.val - 1) (Nat.lt_of_le_of_lt (Nat.sub_le _ _) t.isLt)).2.2.2.1
    ∧ (outsAt0 m c t.val t.isLt).2.2.2.2 = k0_pay1 (k0_pay7 (xblk m c t) (pblk m c t)) (outsAt0 m c (t.val - 1) (Nat.lt_of_le_of_lt (Nat.sub_le _ _) t.isLt)).2.2.2.2 := by
  rw [outsAt0_C m c t h0 h1]
  dsimp only
  exact ⟨out_C_2 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) _ _,
    out_C_3 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) _ _,
    out_C_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) _ _,
    sout_C_0 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) _ _,
    sout_C_1 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) _ _⟩

/-- Every point leaves the distances of its block in the distance window. -/
theorem at_any (c : Dev nD) (t : Fin cfg0.N) :
    (outsAt0 m c t.val t.isLt).1 = k0_pay6 (xblk m c t) (pblk m c t) := by
  by_cases h0 : t.val % 64 = 0
  · exact (at_first m c t h0 (by omega)).1
  · by_cases h1 : t.val % 64 = 63
    · exact (at_last m c t h0 h1).1
    · exact (at_middle m c t h0 h1).1

/-- Every point but the first folds its block into the running values the point before left. -/
theorem at_later (c : Dev nD) (t : Fin cfg0.N) (h0 : ¬t.val % 64 = 0) :
    (outsAt0 m c t.val t.isLt).2.2.2.1 = k0_pay8 (xblk m c t) (pblk m c t) (outsAt0 m c (t.val - 1) (Nat.lt_of_le_of_lt (Nat.sub_le _ _) t.isLt)).2.2.2.1
    ∧ (outsAt0 m c t.val t.isLt).2.2.2.2 = k0_pay1 (k0_pay7 (xblk m c t) (pblk m c t)) (outsAt0 m c (t.val - 1) (Nat.lt_of_le_of_lt (Nat.sub_le _ _) t.isLt)).2.2.2.2 := by
  by_cases h1 : t.val % 64 = 63
  · exact ⟨(at_last m c t h0 h1).2.2.2.1, (at_last m c t h0 h1).2.2.2.2⟩
  · exact ⟨(at_middle m c t h0 h1).2.1, (at_middle m c t h0 h1).2.2⟩

end Cert.KernelIdeal.Pieces

end
-- ==== Proof.KPayload.lean ====
/-
  The kernel body's values, read one element at a time on the extended reals.

  One step of the kernel holds a block of 512 rows `x` and all 2048 prototypes `p`, in dimension 256. Its distance
  block is, at `(r, j)`, `max ((‖x r‖² + ‖p j‖²) - 2 · ⟨x r, p j⟩) 0`: the squared norms are sums along the rows of the
  elementwise squares, kept as a column and as a row and spread over the block; the inner products are the matrix product
  of `x` with the transpose of `p` (both operands contracted along their second axis), and narrowing the operands'
  format changes no extended real. The minimum of the block along a row is that row's least distance, and the sum of
  these over the rows is the step's contribution to the running sum; the minimum down a column, taken with the previous
  value, is the running column minimum. The running values start at the top element and at zero, and the two results are
  the sum of the running minima divided by 2048 and the running sum divided by 32768.

  Three kinds of fact carry this: a shape cast that adds a unit axis, and a broadcast along it, read the operand at the
  remaining coordinate; a sum or a minimum over one axis of a matrix is the sum or the fold of `min` over that axis's
  coordinates; a matrix product accumulated into zero is the sum of the operands' products over the contraction coordinate.
-/
import proofs.«105423_j27504970564139_1_alg».proof.Proof.Spec
import proofs.«105423_j27504970564139_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.Payload

open Cert.KernelIdeal Cert.KernelIdeal.Gen Cert.Knn Idealize.ShloMosaic Idealize.ShloMosaic.ValueIdx

/-! ## Layout forms: a trailing unit axis added, and a column broadcast over many -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One-axis reductions of a matrix, read at a coordinate -/

section Reduce
variable {φ : FTy}

/-- The index over row `r` with coordinate `k` inserted on axis 1 is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The index over column `c` with coordinate `k` inserted on axis 0 is `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- A sum along the rows of a matrix, read at row `r`: the sum of that row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A sum down the columns of a matrix, read at column `c`: the sum of that column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_col h c k))

/-- A minimum over ONE axis, read at `Ideal`: the fold of `min` from the accumulator's value over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A minimum along the rows of a matrix, read at row `r`: the least of that row's entries and the accumulator. -/
theorem multiReduction_minimumf_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) :=
  (multiReduction_minimumf_single src acc h hφ hacc (ix1 r)).trans
    (congrArg (Finset.fold min (Ideal.ofBits φ acc) · Finset.univ) (funext fun k => congrArg src (lift_row h r k)))

/-- A minimum down the columns of a matrix, read at column `c`. -/
theorem multiReduction_minimumf_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (Ideal.ofBits φ acc) (fun k => src (ix2 k c)) :=
  (multiReduction_minimumf_single src acc h hφ hacc (ix1 c)).trans
    (congrArg (Finset.fold min (Ideal.ofBits φ acc) · Finset.univ) (funext fun k => congrArg src (lift_col h c k)))

end Reduce

/-! ## The kernel's matrix product, read at an index -/

section Matmul

/-- Axis 0 of the left operand's index is the output's row. -/
theorem lhs_dot_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
/-- Axis 1 of the left operand's index is the contraction coordinate. -/
theorem lhs_dot_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
/-- Axis 0 of the right operand's index is the output's column. -/
theorem rhs_dot_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
/-- Axis 1 of the right operand's index is the contraction coordinate. -/
theorem rhs_dot_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product of a `[512, 256]` block with the transpose of the `[2048, 256]` prototypes, accumulated into zero, is at
    `(r, j)` the inner product of row `r` with prototype `j`: both operands are contracted along their axis 1. -/
theorem matmul_inner_apply {φ₁ φ₂ : FTy} (x : FVec Ideal S512x256 φ₁) (p : FVec Ideal S2048x256 φ₂) (r : Fin 512) (j : Fin 2048) :
    matmul dot_S512x256_S2048x256_S512x2048_1_1_0_0_n_n none x p (constant S512x2048 .f32 0x00000000#32) (ix2 r j)
      = ∑ k : Fin 256, x (ix2 r k) * p (ix2 j k) := by
  refine (Ideal.matmul_constant_zero_apply dot_S512x256_S2048x256_S512x2048_1_1_0_0_n_n none x p (ix2 r j)).trans ?_
  rw [← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 r j) ((contrEquiv1 dot_S512x256_S2048x256_S512x2048_1_1_0_0_n_n 256 rfl rfl).symm k) = ix2 r k := funext fun a => Fin.ext (by
    match a with
    | ⟨0, _⟩ => exact lhs_dot_0 _ _
    | ⟨1, _⟩ => exact (lhs_dot_1 _ _).trans hk)
  have er : dot_S512x256_S2048x256_S512x2048_1_1_0_0_n_n.rhsIdx (ix2 r j) ((contrEquiv1 dot_S512x256_S2048x256_S512x2048_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

end Matmul

/-! ## The payloads at an index -/

/-- The distance block: at `(r, j)` the clipped squared distance between row `r` of the block and prototype `j`. -/
theorem pay6_apply (xb : Vec Ideal S512x256 .f32) (pb : Vec Ideal S2048x256 .f32) (r : Fin 512) (j : Fin 2048) :
    k0_pay6 xb pb (ix2 r j) = dist xb pb r j := by
  unfold k0_pay6 Cert.Knn.dist
  simp only [maximumf_apply, subf_apply, addf_apply, mulf_apply, broadcast_apply]
  refine congrArg₂ max (congrArg₂ (· - ·) (congrArg₂ (· + ·) ?_ ?_) (congrArg (two * ·) ?_)) Ideal.ofBits_zero_f32
  · -- the squared norm of row r, kept as a column and spread along the row
    exact (broadcastTo_a1_ab_apply _ _ r j).trans
      ((shapeCast_a_a1_apply _ _ r 0).trans (multiReduction_add_row _ _ _ _ _ r))
  · -- the squared norm of prototype j, laid out as a row and spread down the column
    exact (broadcastTo_1b_ab_apply _ _ r j).trans
      ((shapeCast_a_1a_apply _ _ 0 j).trans (multiReduction_add_row _ _ _ _ _ j))
  · -- the inner product; narrowing the operands' format changes no value
    exact matmul_inner_apply _ _ r j

/-- The sum over the block's rows of each row's least distance. -/
theorem pay7_apply (xb : Vec Ideal S512x256 .f32) (pb : Vec Ideal S2048x256 .f32) :
    k0_pay7 xb pb (ix2 0 0) = ∑ r : Fin 512, rowmin xb pb r := by
  unfold k0_pay7
  refine (shapeCast_a_1a_apply _ _ 0 0).trans ((multiReduction_add_col _ _ _ _ _ 0).trans ?_)
  refine Finset.sum_congr rfl fun r _ => ?_
  refine (shapeCast_a_a1_apply _ _ r 0).trans ((multiReduction_minimumf_row _ _ _ _ _ r).trans ?_)
  unfold rowmin
  rw [ofBits_inf_f32]
  exact congrArg (Finset.fold min ⊤ · Finset.univ) (funext fun j => pay6_apply xb pb r j)

/-- The running column minimum after this block: the least of the previous value and the block's column minimum. -/
theorem pay8_apply (xb : Vec Ideal S512x256 .f32) (pb : Vec Ideal S2048x256 .f32) (prev : Vec Ideal S1x2048 .f32) (j : Fin 2048) :
    k0_pay8 xb pb prev (ix2 0 j) = min (prev (ix2 0 j)) (colmin xb pb j) := by
  unfold k0_pay8
  rw [shapeCast_self]
  refine congrArg (min (prev (ix2 0 j))) ?_
  refine (shapeCast_a_1a_apply _ _ 0 j).trans ((multiReduction_minimumf_col _ _ _ _ _ j).trans ?_)
  unfold colmin
  rw [ofBits_inf_f32]
  exact congrArg (Finset.fold min ⊤ · Finset.univ) (funext fun r => pay6_apply xb pb r j)

/-- The running sum after this block: the previous value plus the block's sum. -/
theorem pay1_apply (v28 : FVec Ideal S1x1 .f32) (v34 : Vec Ideal S1x1 .f32) :
    k0_pay1 v28 v34 (ix2 0 0) = v34 (ix2 0 0) + v28 (ix2 0 0) := by
  unfold k0_pay1
  rw [shapeCast_self]
  rfl

/-- The mean over the prototypes of the running column minimum. -/
theorem pay2_apply (mv : Vec Ideal S1x2048 .f32) :
    k0_pay2 mv (ix2 0 0) = Ideal.div (∑ j : Fin 2048, mv (ix2 0 j)) (Ideal.ofBits .f32 0x45000000#32) := by
  unfold k0_pay2
  refine congrArg (Ideal.div · (Ideal.ofBits .f32 0x45000000#32)) ?_
  exact (shapeCast_a_1a_apply _ _ 0 0).trans (multiReduction_add_row _ _ _ _ _ 0)

/-- The running sum divided by the number of rows. -/
theorem pay3_apply (l : Vec Ideal S1x1 .f32) :
    k0_pay3 l (ix2 0 0) = Ideal.div (l (ix2 0 0)) (Ideal.ofBits .f32 0x47000000#32) := rfl

/-- The running column minimum starts at the top element. -/
theorem pay4_apply (j : Fin 2048) : k0_pay4 (F := Ideal) (ix2 0 j) = ⊤ := by
  unfold k0_pay4
  rw [shapeCast_self]
  exact ofBits_inf_f32

/-- The running sum starts at zero. -/
theorem pay5_apply : k0_pay5 (F := Ideal) (ix2 0 0) = 0 := by
  unfold k0_pay5
  rw [shapeCast_self]
  exact Ideal.ofBits_zero_f32

end Cert.KernelIdeal.Payload

end
-- ==== Proof.KValue.lean ====
/-
  What the kernel program computes, at the extended reals.

  The grid walks the 32768 rows in 64 blocks of 512.  At each point the body writes the block's clipped squared distances
  to all 2048 prototypes, folds the block's column minima into a running minimum and the sum of the block's row minima
  into a running sum; the last point divides the sum of the running minima by 2048 and the running sum by 32768.
  A block read through its window is the rows `512 t … 512 t + 511` of `x` (and the whole prototype array), so by
  induction on the point the running values are the minimum and the sum over the rows of blocks `0 … t`
  (`Spec`'s `accMin`, `accSum`), which after the last block are the column minima over all rows and the sum of all row
  minima.  The distance blocks tile the result matrix; each mean's one-entry array is written once, by the last point,
  and is then reshaped to a scalar.
-/
import proofs.«105423_j27504970564139_1_alg».proof.Proof.Spec
import proofs.«105423_j27504970564139_1_alg».proof.Proof.KPoints
import proofs.«105423_j27504970564139_1_alg».proof.Proof.KPayload
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.Payload Cert.Knn
open Idealize.ShloMosaic.ValueIdx

variable (m : (ℓ : Loc nD τ sig) → Buf (Elt Ideal) ℓ) (ρ : Dev nD → PrngReg)

/-- The rows and the prototypes as the region finds them. -/
abbrev xarr (c : Dev nD) : (⟨2, ![32768, 256]⟩ : Shape).Idx → EReal := V m c main_arg0
abbrev parr (c : Dev nD) : (⟨2, ![2048, 256]⟩ : Shape).Idx → EReal := V m c main_arg1

theorem N64 : cfg0.N = 64 := N_0

/-- Point `t` as a block number. -/
abbrev blockOf (t : Fin cfg0.N) : Fin 64 := ⟨t.val, lt_of_lt_of_eq t.isLt N64⟩

/-- The index maps over the grid: the row windows move one block per point along axis 0, the prototypes stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of point `t`'s block of `x` is row `512 t + r` of `x`. -/
theorem xblk_apply (c : Dev nD) (t : Fin cfg0.N) (r : Fin 512) (k : Fin 256) :
    xblk m c t (ix2 r k) = xarr m c (ix2 (rowOf (blockOf t) r) k) := by
  obtain ⟨e0, e1, -⟩ := idx_facts t
  show V m c main_arg0 (((cfg0.win 0).blk t).view.emb (ix2 r k)) = V m c main_arg0 _
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 256 + 1 * k.val = k.val; omega

/-- The prototypes' block is the whole array at every point. -/
theorem pblk_eq (c : Dev nD) (t : Fin cfg0.N) : pblk m c t = parr m c := by
  obtain ⟨-, -, e2, e3, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- So the block's distances are those of its rows. -/
theorem dist_blk (c : Dev nD) (t : Fin cfg0.N) (r : Fin 512) (j : Fin 2048) :
    dist (xblk m c t) (pblk m c t) r j = dist (xarr m c) (parr m c) (rowOf (blockOf t) r) j := by
  rw [pblk_eq]
  exact dist_block _ _ _ _ (xblk_apply m c t) r j

theorem colmin_blk (c : Dev nD) (t : Fin cfg0.N) (j : Fin 2048) :
    colmin (xblk m c t) (pblk m c t) j
      = (Finset.univ : Finset (Fin 512)).fold min ⊤ (fun r => dist (xarr m c) (parr m c) (rowOf (blockOf t) r) j) := by
  unfold colmin
  exact congrArg (fun f => (Finset.univ : Finset (Fin 512)).fold min ⊤ f) (funext fun r => dist_blk m c t r j)

theorem rowmin_blk (c : Dev nD) (t : Fin cfg0.N) (r : Fin 512) :
    rowmin (xblk m c t) (pblk m c t) r = rowmin (xarr m c) (parr m c) (rowOf (blockOf t) r) := by
  unfold rowmin
  exact congrArg (fun f => (Finset.univ : Finset (Fin 2048)).fold min ⊤ f) (funext fun j => dist_blk m c t r j)

/-- THE ACCUMULATION: after point `n` the running column minimum is the minimum over the rows of blocks `0 … n`, and the
    running sum is the sum of the row minima of those rows — by induction on the point. -/
theorem acc_inv (c : Dev nD) : ∀ (n : ℕ) (hn : n < cfg0.N),
    (∀ j : Fin 2048, (outsAt0 m c n hn).2.2.2.1 (ix2 0 j) = accMin (fun N => dist (xarr m c) (parr m c) N j) n)
    ∧ (outsAt0 m c n hn).2.2.2.2 (ix2 0 0) = accSum (rowmin (xarr m c) (parr m c)) n
  | 0, hn => by
    obtain ⟨-, hM, hS⟩ := at_first m c ⟨0, hn⟩ rfl (by show ¬0 % 64 = 63; decide)
    constructor
    · intro j
      refine (congrFun hM (ix2 0 j)).trans ?_
      refine (pay8_apply _ _ _ j).trans ?_
      rw [pay4_apply, min_top_left, colmin_blk]
      exact (accMin_zero (fun N => dist (xarr m c) (parr m c) N j)).symm
    · refine (congrFun hS (ix2 0 0)).trans ?_
      refine (pay1_apply _ _).trans ?_
      rw [pay5_apply, zero_add, pay7_apply]
      simp only [rowmin_blk]
      exact (accSum_zero (rowmin (xarr m c) (parr m c))).symm
  | n + 1, hn => by
    have hN : cfg0.N = 64 := N_0
    obtain ⟨ihM, ihS⟩ := acc_inv c n (Nat.lt_of_succ_lt hn)
    have h0 : ¬(⟨n + 1, hn⟩ : Fin cfg0.N).val % 64 = 0 := by dsimp only; omega
    obtain ⟨hM, hS⟩ := at_later m c ⟨n + 1, hn⟩ h0
    have hn' : n + 1 < 64 := by omega
    constructor
    · intro j
      refine (congrFun hM (ix2 0 j)).trans ?_
      refine (pay8_apply _ _ _ j).trans ?_
      rw [colmin_blk]
      refine Eq.trans ?_ (accMin_succ (fun N => dist (xarr m c) (parr m c) N j) n hn').symm
      exact congrArg (fun z => min z _) (ihM j)
    · refine (congrFun hS (ix2 0 0)).trans ?_
      refine (pay1_apply _ _).trans ?_
      rw [pay7_apply]
      simp only [rowmin_blk]
      refine Eq.trans ?_ (accSum_succ (rowmin (xarr m c) (parr m c)) n hn').symm
      exact congrArg (fun z => z + _) ihS

/-! ## The distance matrix: every point writes the distances of its rows -/

/-- What point `t` writes back is block `t` of the distance matrix. -/
theorem flushed2_eq (c : Dev nD) (t : Fin cfg0.N) :
    (dats m 0 c).flushed 2 t = ((cfg0.win 2).blk t).view.read (Elt Ideal) (distArr (xarr m c) (parr m c)) := by
  show (cfg0.win 2).cut (grid0.coords t) ((dats m 0 c).after 2 t) = _
  rw [after0_2, at_any]
  obtain ⟨-, -, -, -, e4, e5⟩ := idx_facts t
  funext y
  obtain ⟨r, j, rfl⟩ : ∃ (r : Fin 512) (j : Fin 2048), y = ix2 r j := ⟨y 0, y 1, eq_ix2 y⟩
  show k0_pay6 (xblk m c t) (pblk m c t) (ix2 r j)
    = distArr (xarr m c) (parr m c) (((cfg0.win 2).blk t).view.emb (ix2 r j))
  refine (pay6_apply _ _ r j).trans ?_
  rw [dist_blk]
  have a0 : (((cfg0.win 2).blk t).view.emb (ix2 r j)) 0 = rowOf (blockOf t) r :=
    Fin.ext (by show win0_2.index t (0 : Fin 2) * 512 + 1 * r.val = t.val * 512 + r.val; omega)
  have a1 : (((cfg0.win 2).blk t).view.emb (ix2 r j)) 1 = j :=
    Fin.ext (by show win0_2.index t (1 : Fin 2) * 2048 + 1 * j.val = j.val; omega)
  show _ = dist _ _ ((((cfg0.win 2).blk t).view.emb (ix2 r j)) 0) ((((cfg0.win 2).blk t).view.emb (ix2 r j)) 1)
  rw [a0, a1]
  rfl

/-- An entry of the matrix is in point `t`'s block iff each coordinate is in the block's range. -/
theorem mem_blk2 (t : Fin cfg0.N) (i : S32768x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0_0).slice (win0_2.rect t)).set ↔ _
  rw [View.set_slice_whole, Rect.mem_set_unit]
  exact Iff.rfl

/-- The blocks tile the matrix (row `n` is in block `n / 512`), so it ends as the distance matrix. -/
theorem final2 (c : Dev nD) : (dats m 0 c).arrAt 2 cfg0.N = distArr (xarr m c) (parr m c) :=
  (dats m 0 c).arrAt_eq_of_cover 2 _ (fun t _ => flushed2_eq m c t) fun i => by
    have hi0 : (i 0).val < 32768 := (i 0).isLt
    have hi1 : (i 1).val < 2048 := (i 1).isLt
    have hN : cfg0.N = 64 := N_0
    obtain ⟨-, -, -, -, e4, e5⟩ := idx_facts ⟨(i 0).val / 512, by omega⟩
    refine ⟨⟨(i 0).val / 512, by omega⟩, flush0_2 _, ?_⟩
    rw [mem_blk2]
    intro a
    match a with
    | ⟨0, _⟩ =>
      show win0_2.index ⟨(i 0).val / 512, _⟩ (0 : Fin 2) * 512 ≤ (i 0).val ∧ (i 0).val < win0_2.index ⟨(i 0).val / 512, _⟩ (0 : Fin 2) * 512 + 512
      rw [e4]; dsimp only; omega
    | ⟨1, _⟩ =>
      show win0_2.index ⟨(i 0).val / 512, _⟩ (1 : Fin 2) * 2048 ≤ (i 1).val ∧ (i 1).val < win0_2.index ⟨(i 0).val / 512, _⟩ (1 : Fin 2) * 2048 + 2048
      rw [e5]; omega

/-! ## The two means: stored at the last point only -/

/-- The last point's write-back of the first mean. -/
theorem flushed3_eq (c : Dev nD) (t : Fin cfg0.N) (hf : (cfg0.win 3).flush t = true) :
    (dats m 0 c).flushed 3 t = ((cfg0.win 3).blk t).view.read (Elt Ideal) (fun _ => r1 (xarr m c) (parr m c)) := by
  have h63 : t.val % 64 = 63 := (flush0_3 t).mp hf
  have hN : cfg0.N = 64 := N_0
  have ht : t.val = 63 := by have := t.isLt; omega
  have h0 : ¬t.val % 64 = 0 := by omega
  have L := at_last m c t h0 h63
  show (cfg0.win 3).cut (grid0.coords t) ((dats m 0 c).after 3 t) = _
  rw [after0_3, L.2.1, ← L.2.2.2.1]
  funext y
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  show k0_pay2 ((outsAt0 m c t.val t.isLt).2.2.2.1) (ix2 0 0) = r1 (xarr m c) (parr m c)
  refine (pay2_apply _).trans ?_
  unfold r1
  refine congrArg (fun s => Ideal.div s (Ideal.ofBits .f32 0x45000000#32)) (Finset.sum_congr rfl fun j _ => ?_)
  refine ((acc_inv m c t.val t.isLt).1 j).trans ?_
  rw [ht]
  exact accMin_last _

/-- The last point's write-back of the second mean. -/
theorem flushed4_eq (c : Dev nD) (t : Fin cfg0.N) (hf : (cfg0.win 4).flush t = true) :
    (dats m 0 c).flushed 4 t = ((cfg0.win 4).blk t).view.read (Elt Ideal) (fun _ => r2 (xarr m c) (parr m c)) := by
  have h63 : t.val % 64 = 63 := (flush0_4 t).mp hf
  have hN : cfg0.N = 64 := N_0
  have ht : t.val = 63 := by have := t.isLt; omega
  have h0 : ¬t.val % 64 = 0 := by omega
  have L := at_last m c t h0 h63
  show (cfg0.win 4).cut (grid0.coords t) ((dats m 0 c).after 4 t) = _
  rw [after0_4, L.2.2.1, ← L.2.2.2.2]
  funext y
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  show k0_pay3 ((outsAt0 m c t.val t.isLt).2.2.2.2) (ix2 0 0) = r2 (xarr m c) (parr m c)
  refine (pay3_apply _).trans ?_
  unfold r2
  refine congrArg (fun s => Ideal.div s (Ideal.ofBits .f32 0x47000000#32)) ?_
  refine ((acc_inv m c t.val t.isLt).2).trans ?_
  rw [ht]
  exact accSum_last _

/-- The last grid point. -/
abbrev tLast : Fin cfg0.N := ⟨63, by rw [N64]; decide⟩

theorem mem_blk3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v0_1).slice (win0_3.rect t)).set ↔ _
  rw [View.set_slice_whole, Rect.mem_set_unit]
  exact Iff.rfl

theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v0_2).slice (win0_4.rect t)).set ↔ _
  rw [View.set_slice_whole, Rect.mem_set_unit]
  exact Iff.rfl

theorem idx_facts34 : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The one block of each mean's array is the array, so each ends at its mean. -/
theorem final3 (c : Dev nD) : (dats m 0 c).arrAt 3 cfg0.N = fun _ => r1 (xarr m c) (parr m c) :=
  (dats m 0 c).arrAt_eq_of_cover 3 _ (flushed3_eq m c) fun i => by
    have hi0 : (i 0).val < 1 := (i 0).isLt
    have hi1 : (i 1).val < 1 := (i 1).isLt
    obtain ⟨e0, e1, -⟩ := idx_facts34 tLast
    refine ⟨tLast, (flush0_3 tLast).mpr rfl, ?_⟩
    rw [mem_blk3]
    intro a
    match a with
    | ⟨0, _⟩ => show win0_3.index tLast (0 : Fin 2) * 1 ≤ (i 0).val ∧ (i 0).val < win0_3.index tLast (0 : Fin 2) * 1 + 1; omega
    | ⟨1, _⟩ => show win0_3.index tLast (1 : Fin 2) * 1 ≤ (i 1).val ∧ (i 1).val < win0_3.index tLast (1 : Fin 2) * 1 + 1; omega

theorem final4 (c : Dev nD) : (dats m 0 c).arrAt 4 cfg0.N = fun _ => r2 (xarr m c) (parr m c) :=
  (dats m 0 c).arrAt_eq_of_cover 4 _ (flushed4_eq m c) fun i => by
    have hi0 : (i 0).val < 1 := (i 0).isLt
    have hi1 : (i 1).val < 1 := (i 1).isLt
    obtain ⟨-, -, e2, e3⟩ := idx_facts34 tLast
    refine ⟨tLast, (flush0_4 tLast).mpr rfl, ?_⟩
    rw [mem_blk4]
    intro a
    match a with
    | ⟨0, _⟩ => show win0_4.index tLast (0 : Fin 2) * 1 ≤ (i 0).val ∧ (i 0).val < win0_4.index tLast (0 : Fin 2) * 1 + 1; omega
    | ⟨1, _⟩ => show win0_4.index tLast (1 : Fin 2) * 1 ≤ (i 1).val ∧ (i 1).val < win0_4.index tLast (1 : Fin 2) * 1 + 1; omega

/-! ## After the region: each mean's one-entry array reshaped to a scalar -/

theorem tail1 (c : Dev nD) :
    Pipeline.afterTail₀ cfgs (dats m) 0 (V0 m) [hostOps1] c main_v1 = fun _ => r1 (xarr m c) (parr m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0_1)
      = fun _ => r1 (xarr m c) (parr m c) :=
    (Pipeline.withArrays_arr spec0 launch0.win.arr_inj c _ _ 3).trans (final3 m c)
  funext i
  show shapeCast S_ (Pipeline.withArrays (cfgs 0).spec c (V0 m c) (fun w => (dats m 0 c).arrAt w (cfgs 0).N) (Proc.tc.devRef main_v0_1)) shapeCasts_S1x1_S_ i = _
  rw [e]
  rfl

theorem tail2 (c : Dev nD) :
    Pipeline.afterTail₀ cfgs (dats m) 0 (V0 m) [hostOps1] c main_v2 = fun _ => r2 (xarr m c) (parr m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0_2)
      = fun _ => r2 (xarr m c) (parr m c) :=
    (Pipeline.withArrays_arr spec0 launch0.win.arr_inj c _ _ 4).trans (final4 m c)
  funext i
  show shapeCast S_ (Pipeline.withArrays (cfgs 0).spec c (V0 m c) (fun w => (dats m 0 c).arrAt w (cfgs 0).N) (Proc.tc.devRef main_v0_2)) shapeCasts_S1x1_S_ i = _
  rw [e]
  rfl

/-! ## The run, read -/

/-- Every weakly fair execution of the kernel program ends with the distance matrix and the two means in its results,
    the arguments unchanged. -/
theorem run : θ_run defs (onTc (τ := τ) (main (F := Ideal))) ⟨m, fun _ => 0, ρ⟩ fun r => ∀ c : Dev nD,
      r.2.mem ((c.tc : Thread nD τ).loc main_v0_0) = distArr (xarr m c) (parr m c)
      ∧ r.2.mem ((c.tc : Thread nD τ).loc main_v1) = (fun _ => r1 (xarr m c) (parr m c))
      ∧ r.2.mem ((c.tc : Thread nD τ).loc main_v2) = (fun _ => r2 (xarr m c) (parr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final2 m c),
      ((h c).2 main_v1 (Pipeline.mem_restRefs_of main_v1 rfl (by decide))).trans (tail1 m c),
      ((h c).2 main_v2 (Pipeline.mem_restRefs_of main_v2 rfl (by decide))).trans (tail2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate's claim: the Pallas nearest-prototype kernel against its jnp reference.

  Both programs compute, for rows `x n` and prototypes `p j`, the clipped squared distances
  `max ((‖x n‖² + ‖p j‖²) - 2 · ⟨x n, p j⟩) 0`, the mean over prototypes of the column minima and the mean over rows of
  the row minima.  The kernel takes the rows in 64 blocks, its inner product on operands narrowed to bf16 (the identity
  on the extended reals), and accumulates the minima and the sum block by block; the reference reduces whole arrays.
  Over the extended reals minimum and sum are associative and commutative, so the block-wise accumulation is the
  whole-array reduction; no finiteness of the inputs is used.  The frames of the two kernel programs are the generated
  ones; the reference's is its generated run with the results dropped; the idealization rewrote nothing.
-/
import proofs.«105423_j27504970564139_1_alg».proof.Defs
import proofs.«105423_j27504970564139_1_alg».proof.Proof.Gen.Kernel
import proofs.«105423_j27504970564139_1_alg».proof.Proof.Gen.Kernel.Skeleton
import proofs.«105423_j27504970564139_1_alg».proof.Proof.Gen.Kernel.Launch
import proofs.«105423_j27504970564139_1_alg».proof.Proof.Gen.Kernel.Points
import proofs.«105423_j27504970564139_1_alg».proof.Proof.Gen.Kernel.Frame
import proofs.«105423_j27504970564139_1_alg».proof.Proof.Gen.KernelIdeal
import proofs.«105423_j27504970564139_1_alg».proof.Proof.Gen.KernelIdeal.Skeleton
import proofs.«105423_j27504970564139_1_alg».proof.Proof.Gen.KernelIdeal.Launch
import proofs.«105423_j27504970564139_1_alg».proof.Proof.Gen.KernelIdeal.Points
import proofs.«105423_j27504970564139_1_alg».proof.Proof.Gen.KernelIdeal.Frame
import proofs.«105423_j27504970564139_1_alg».proof.Proof.Gen.ReferenceIdeal
import proofs.«105423_j27504970564139_1_alg».proof.Proof.Gen.ReferenceIdeal.Run
import proofs.«105423_j27504970564139_1_alg».proof.Proof.Gen.ReferenceIdeal.Read
import proofs.«105423_j27504970564139_1_alg».proof.Proof.Gen.Pre_finite_inputs
import proofs.«105423_j27504970564139_1_alg».proof.Proof.RefValue
import proofs.«105423_j27504970564139_1_alg».proof.Proof.KValue
import Idealize.ShloMosaic.Adequacy
import Idealize.ShloMosaic.Init

noncomputable section

namespace Cert.Proof

open Idealize.ShloMosaic Idealize.SL.Sem Cert.Knn

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The two idealized programs end with the same three results: the distance matrix and the two means of the arguments. -/
theorem algebraic : Cert.algebraic_KernelIdeal_ReferenceIdeal := by
  intro m ρ m' ρ' _ hagree
  refine ⟨fun c => distArr (Cert.KernelIdeal.KValue.xarr m c) (Cert.KernelIdeal.KValue.parr m c),
    fun c => fun _ => r1 (Cert.KernelIdeal.KValue.xarr m c) (Cert.KernelIdeal.KValue.parr m c),
    fun c => fun _ => r2 (Cert.KernelIdeal.KValue.xarr m c) (Cert.KernelIdeal.KValue.parr m c),
    Cert.KernelIdeal.KValue.run m ρ, ?_⟩
  refine (θ_run Cert.ReferenceIdeal.defs _ _).mono
    (fun _ h c => ⟨(h c).1.trans ?_, (h c).2.1.trans ?_, (h c).2.2.1.trans ?_, (h c).2.2.2.1, (h c).2.2.2.2⟩)
    (Cert.ReferenceIdeal.Value.run (F := Ideal) m' ρ')
  · rw [(hagree c).1, (hagree c).2]
    exact (Cert.ReferenceIdeal.Read.val_main_v14_eq _ _).trans (Cert.ReferenceIdeal.RefValue.ref_dist _ _)
  · rw [(hagree c).1, (hagree c).2]
    exact (Cert.ReferenceIdeal.Read.val_main_v17_eq _ _).trans (Cert.ReferenceIdeal.RefValue.ref_r1 _ _)
  · rw [(hagree c).1, (hagree c).2]
    exact (Cert.ReferenceIdeal.Read.val_main_v20_eq _ _).trans (Cert.ReferenceIdeal.RefValue.ref_r2 _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
